-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S8x2048x2 : Shape := ⟨3, ![8, 2048, 2]⟩
abbrev S8x2048x1 : Shape := ⟨3, ![8, 2048, 1]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_
  bcast_S_S8x2048x1 : S_.BroadcastsInDim S8x2048x1 (![] : Fin 0 → Fin S8x2048x1.rank)
  reducesTo_S8x2048x1_S_d0_1_2 : S8x2048x1.ReducesTo [0, 1, 2] S_

variable [Facts]

def fn {F : FTy → Type} [FloatOps F] (main_arg0 : FVec F S4096x2 .f32) (main_arg1 : FVec F S8x2048x2 .f32) (main_arg2 : FVec F S8x2048x1 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S8x2048x2 .f32 := Host.absf main_arg1
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  let main_v9 : FVec F S8x2048x1 .f32 := Host.absf main_arg2
  let main_cst_2 : FVec F S_ .f32 := constant S_ .f32 0x7F800000#32
  let main_v10 : FVec F S8x2048x1 .f32 := broadcastInDim S8x2048x1 ![] bcast_S_S8x2048x1 main_cst_2
  let main_v11 : IVec S8x2048x1 1 := cmpf .olt main_v9 main_v10
  let main_c_3 : IVec S_ 1 := constantI S_ 1 1#1
  let main_v12 : IVec S_ 1 := (fun x v => Host.reduce IntOp.andi x v reducesTo_S8x2048x1_S_d0_1_2 h_S_) main_v11 main_c_3
  let main_v13 : IVec S_ 1 := andi main_v8 main_v12
  main_v13
-- ==== Kernel.lean ====
abbrev S4096x2 : Shape := ⟨2, ![4096, 2]⟩
abbrev S8x2048x2 : Shape := ⟨3, ![8, 2048, 2]⟩
abbrev S8x2048x1 : Shape := ⟨3, ![8, 2048, 1]⟩
abbrev S8x2048x4096 : Shape := ⟨3, ![8, 2048, 4096]⟩
abbrev S1024x2 : Shape := ⟨2, ![1024, 2]⟩
abbrev S1x1024x2 : Shape := ⟨3, ![1, 1024, 2]⟩
abbrev S1x1024x1 : Shape := ⟨3, ![1, 1024, 1]⟩
abbrev S1x1024x1024 : Shape := ⟨3, ![1, 1024, 1024]⟩
abbrev S1024x1 : Shape := ⟨2, ![1024, 1]⟩
abbrev S1024 : Shape := ⟨1, ![1024]⟩
abbrev S2x1024 : Shape := ⟨2, ![2, 1024]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2, .f32⟩
  | .hbm, ⟨1, _⟩ => ⟨S8x2048x2, .f32⟩
  | .hbm, ⟨2, _⟩ => ⟨S8x2048x1, .f32⟩
  | .hbm, ⟨3, _⟩ => ⟨S8x2048x4096, .f32⟩
  | .local _ .vmem, ⟨0, _⟩ => ⟨S1024x2, .f32⟩
  | .local _ .vmem, ⟨1, _⟩ => ⟨S1024x2, .f32⟩
  | .local _ .vmem, ⟨2, _⟩ => ⟨S1x1024x2, .f32⟩
  | .local _ .vmem, ⟨3, _⟩ => ⟨S1x1024x2, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1024, .f32⟩
  | .local _ .vmem, ⟨7, _⟩ => ⟨S1x1024x1024, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1024x2_S1024x2_0_0 : ∀ a, (![0, 0] : Fin 2 → Nat) a + S1024x2.size a ≤ S1024x2.size a
  h_S1024x2 : 0 < S1024x2.numel
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  reduces_S1024x2_S1024 : S1024x2.Reduces [1] S1024
  shapeCasts_S1024_S1024x1 : S1024.ShapeCasts S1024x1
  transposes_S1024x2_p1_0_S2x1024 : S1024x2.Transposes [1, 0] S2x1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x2_S2x1024_S1024x1024_1_0_0_1_n_n_wf : DotDims.WF S1024x2 S2x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S4096x2.size a
  hwx0_0 : ∀ i : grid0.Coords, EltTy.bits .f32 = 32 ∨ (Rect.block (s := S4096x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2.size a ≤ S8x2048x2.size a
  hwx0_1 : ∀ i : grid0.Coords, EltTy.bits .f32 = 32 ∨ (Rect.block (s := S8x2048x2) S1x1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x2048x1.size a
  hwx0_2 : ∀ i : grid0.Coords, EltTy.bits .f32 = 32 ∨ (Rect.block (s := S8x2048x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x4096.size a
  hwx0_3 : ∀ i : grid0.Coords, EltTy.bits .f32 = 32 ∨ (Rect.block (s := S8x2048x4096) S1x1024x1024.size (cc0_transform_3 i) (hinb0_3 i)).WholeWords (EltTy.packing .f32)

variable [Facts₀]

def dot_S1024x2_S2x1024_S1024x1024_1_0_0_1_n_n : DotDims S1024x2 S2x1024 S1024x1024 where
  lhsContracting := [1]
  rhsContracting := [0]
  lhsNonContracting := [0]
  rhsNonContracting := [1]
  lhsBatch := []
  rhsBatch := []
  wf := dot_S1024x2_S2x1024_S1024x1024_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2 : Shape := ⟨2, ![4096, 2]⟩
abbrev S8x2048x2 : Shape := ⟨3, ![8, 2048, 2]⟩
abbrev S8x2048x1 : Shape := ⟨3, ![8, 2048, 1]⟩
abbrev S_ : Shape := ⟨0, ![]⟩
abbrev S4096 : Shape := ⟨1, ![4096]⟩
abbrev S8x2048 : Shape := ⟨2, ![8, 2048]⟩
abbrev S8x2048x4096 : Shape := ⟨3, ![8, 2048, 4096]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S8x2048x2, .f32⟩
  | .hbm, ⟨2, _⟩ => ⟨S8x2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S4096x2, .f32⟩
  | .hbm, ⟨12, _⟩ => ⟨S_, .f32⟩
  | .hbm, ⟨13, _⟩ => ⟨S4096, .f32⟩
  | .hbm, ⟨14, _⟩ => ⟨S8x2048x2, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x4096, .f32⟩
  | .hbm, ⟨19, _⟩ => ⟨S1x1x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S_, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S_, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  bcast_S_S8x2048x1 : S_.BroadcastsInDim S8x2048x1 (![] : Fin 0 → Fin S8x2048x1.rank)
  reducesTo_S4096x2_S4096_d1 : S4096x2.ReducesTo [1] S4096
  h_S_ : 0 < S_.numel
  reducesTo_S8x2048x2_S8x2048_d2 : S8x2048x2.ReducesTo [2] S8x2048
  bcast_S8x2048_S8x2048x1_0_1 : S8x2048.BroadcastsInDim S8x2048x1 (![0, 1] : Fin 2 → Fin S8x2048x1.rank)
  bcast_S4096_S1x1x4096_2 : S4096.BroadcastsInDim S1x1x4096 (![2] : Fin 1 → Fin S1x1x4096.rank)
  bcast_S8x2048x1_S8x2048x4096_0_1_2 : S8x2048x1.BroadcastsInDim S8x2048x4096 (![0, 1, 2] : Fin 3 → Fin S8x2048x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x2_S4096x2_S8x2048x4096_2_1_01_0_n_n_wf : DotDims.WF S8x2048x2 S4096x2 S8x2048x4096 [2] [1] [0, 1] [0] [] []

variable [Facts₀]

def dot_S8x2048x2_S4096x2_S8x2048x4096_2_1_01_0_n_n : DotDims S8x2048x2 S4096x2 S8x2048x4096 where
  lhsContracting := [2]
  rhsContracting := [1]
  lhsNonContracting := [0, 1]
  rhsNonContracting := [0]
  lhsBatch := []
  rhsBatch := []
  wf := dot_S8x2048x2_S4096x2_S8x2048x4096_2_1_01_0_n_n_wf

class Facts : Prop extends Facts₀ where

variable [Facts]
-- ==== Proof.Spec.lean ====
/-
  The Gaussian radial-basis entry, as one function on the extended reals.

  For a grid point with coordinates `zr`, a token position with coordinates `mur` (both in the plane: two
  coordinates) and a width `s`, the entry is

      exp ( - max (|mur|² + |zr|² - 2 · ⟨mur, zr⟩) 0  /  (2 · clip s · clip s) ),

  where `|x|²` and `⟨x, y⟩` are the sums over the two coordinates, the squared distance is written by its
  expansion (so that it is a matrix product plus two row norms) and cut off below at zero, and `clip` keeps the width
  between the two bounds.  The bounds and the factor two are the values of their single-precision patterns; the same
  patterns occur on both sides of the comparison, so they are never evaluated.

  `G z mu sigma` is the whole result array: entry `(b, n, m)` is the radial-basis entry of grid point `m`, token
  `(b, n)` and that token's width.
-/
import Idealize.ShloMosaic.PureOps.Ideal
import Idealize.ShloMosaic.Lib.ValueIdx

noncomputable section

namespace Cert.Rbf

open Idealize.ShloMosaic Idealize.ShloMosaic.ValueIdx

/-- The lower clipping bound (the pattern of one tenth). -/
def lo : EReal := Ideal.ofBits .f32 0x3DCCCCCD#32
/-- The upper clipping bound (the pattern of ten). -/
def hi : EReal := Ideal.ofBits .f32 0x41200000#32
/-- The factor two. -/
def two : EReal := Ideal.ofBits .f32 0x40000000#32

/-- A width kept between the two bounds. -/
def clip (s : EReal) : EReal := min hi (max lo s)

/-- The squared distance of two points of the plane, by its expansion `|mur|² + |zr|² - 2⟨mur, zr⟩`. -/
def sqDist (zr mur : Fin 2 → EReal) : EReal :=
  ((∑ k : Fin 2, mur k * mur k) + (∑ k : Fin 2, zr k * zr k)) - two * ∑ k : Fin 2, mur k * zr k

/-- The radial-basis entry: the Gaussian of the squared distance cut off below at zero, with the clipped width. -/
def entry (zr mur : Fin 2 → EReal) (s : EReal) : EReal :=
  Ideal.exp (Ideal.div (-(max (sqDist zr mur) 0)) (two * clip s * clip s))

/-- The whole result: entry `(b, n, m)` pairs grid point `m` with token `(b, n)`. -/
def G (z : FVec Ideal ⟨2, ![4096, 2]⟩ .f32) (mu : FVec Ideal ⟨3, ![8, 2048, 2]⟩ .f32)
    (sigma : FVec Ideal ⟨3, ![8, 2048, 1]⟩ .f32) : FVec Ideal ⟨3, ![8, 2048, 4096]⟩ .f32 :=
  fun i => entry (fun k => z (ix2 (i 2) k)) (fun k => mu (ix3 (i 0) (i 1) k)) (sigma (ix3 (i 0) (i 1) (0 : Fin 1)))

/-- The result at explicit coordinates. -/
theorem G_apply (z : FVec Ideal ⟨2, ![4096, 2]⟩ .f32) (mu : FVec Ideal ⟨3, ![8, 2048, 2]⟩ .f32)
    (sigma : FVec Ideal ⟨3, ![8, 2048, 1]⟩ .f32) (b : Fin 8) (n : Fin 2048) (m : Fin 4096) :
    G z mu sigma (ix3 b n m)
      = entry (fun k => z (ix2 m k)) (fun k => mu (ix3 b n k)) (sigma (ix3 b n (0 : Fin 1))) := rfl

end Cert.Rbf

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.Payload.lean ====
/-
  The body's stored value, read at one entry of the output block.

  The body holds a block of 1024 grid points `x0` (rows of two coordinates), a block of 1024 token positions `x1`
  and their widths `x3` (each under a leading axis of length one).  Entry `(p, q)` of what it stores pairs token
  `p` of the block with grid point `q` of the block:

  * the token's norm is a lane sum over its two coordinates, kept as a column and repeated along the row;
  * the grid point's norm is a lane sum laid as a row and repeated down the column;
  * the cross term is the matrix product of the token block with the transposed grid-point block into a zero
    accumulator, so a sum over the two coordinates of the products;
  * the width is clipped, and twice its square repeated along the row.

  So the entry is `Cert.Rbf.entry` of grid point `q`'s row, token `p`'s row and token `p`'s width; the body's
  `0 - d` is `-d` on the extended reals.
-/
import proofs.«173449_j25331717112421_1_alg».proof.Proof.Gen.KernelIdeal.Skeleton
import proofs.«173449_j25331717112421_1_alg».proof.Proof.Spec
import proofs.«173449_j25331717112421_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Body

open Cert.KernelIdeal Cert.KernelIdeal.Gen
open Idealize.ShloMosaic Idealize.ShloMosaic.ValueIdx

/-- A lane sum of a `[1024, 2]` block over its two coordinates, at row `p`: the sum of that row. -/
theorem rowSum_apply (v : FVec Ideal S1024x2 .f32) (p : Fin 1024) :
    multiReduction (F := Ideal) .add [1] S1024 v 0x00000000#32 reduces_S1024x2_S1024 (.inl rfl) rfl (ix1 p)
      = ∑ k : Fin 2, v (ix2 p k) :=
  (Ideal.multiReduction_add_single v 0x00000000#32 reduces_S1024x2_S1024 (.inl rfl) rfl (ix1 p)).trans
    (Finset.sum_congr rfl fun k _ => congrArg v (funext fun a => Fin.ext (by
      match a with | ⟨0, _⟩ => rfl | ⟨1, _⟩ => rfl)))

/-! The product's operand indices, axis by axis: the left operand's row is the output's row and its column the
contraction index; the right operand's row is the contraction index and its column the output's column. -/

theorem lhs_axis0 (i : S1024x1024.Idx) (q : dot_S1024x2_S2x1024_S1024x1024_1_0_0_1_n_n.contr.Idx) :
    (dot_S1024x2_S2x1024_S1024x1024_1_0_0_1_n_n.lhsIdx i q 0).val = (i 0).val := by
  unfold DotDims.lhsIdx
  rw [dif_neg (show ¬(0 : Fin S1024x2.rank) ∈ dot_S1024x2_S2x1024_S1024x1024_1_0_0_1_n_n.lhsBatch by decide), dif_pos (show (0 : Fin S1024x2.rank) ∈ dot_S1024x2_S2x1024_S1024x1024_1_0_0_1_n_n.lhsNonContracting by decide)]
  rfl
theorem lhs_axis1 (i : S1024x1024.Idx) (q : dot_S1024x2_S2x1024_S1024x1024_1_0_0_1_n_n.contr.Idx) :
    (dot_S1024x2_S2x1024_S1024x1024_1_0_0_1_n_n.lhsIdx i q 1).val = (q ⟨0, by decide⟩).val :=
  dot_S1024x2_S2x1024_S1024x1024_1_0_0_1_n_n.lhsIdx_val_of_single rfl i q
theorem rhs_axis0 (i : S1024x1024.Idx) (q : dot_S1024x2_S2x1024_S1024x1024_1_0_0_1_n_n.contr.Idx) :
    (dot_S1024x2_S2x1024_S1024x1024_1_0_0_1_n_n.rhsIdx i q 0).val = (q ⟨0, by decide⟩).val :=
  dot_S1024x2_S2x1024_S1024x1024_1_0_0_1_n_n.rhsIdx_val_of_single rfl i q
theorem rhs_axis1 (i : S1024x1024.Idx) (q : dot_S1024x2_S2x1024_S1024x1024_1_0_0_1_n_n.contr.Idx) :
    (dot_S1024x2_S2x1024_S1024x1024_1_0_0_1_n_n.rhsIdx i q 1).val = (i 1).val := by
  unfold DotDims.rhsIdx
  rw [dif_neg (show ¬(1 : Fin S2x1024.rank) ∈ dot_S1024x2_S2x1024_S1024x1024_1_0_0_1_n_n.rhsBatch by decide), dif_pos (show (1 : Fin S2x1024.rank) ∈ dot_S1024x2_S2x1024_S1024x1024_1_0_0_1_n_n.rhsNonContracting by decide)]
  rfl

/-- The matrix product of a `[1024, 2]` block `a` with the transpose of a `[1024, 2]` block `z` into the zero
    accumulator, at `(p, q)`: the sum over the two contraction indices of row `p` of `a` times row `q` of `z`. -/
theorem cross_apply (a z : FVec Ideal S1024x2 .f32) (p q : Fin 1024) :
    matmul (F := Ideal) dot_S1024x2_S2x1024_S1024x1024_1_0_0_1_n_n none a
        (transpose S2x1024 [1, 0] z transposes_S1024x2_p1_0_S2x1024) (constant (F := Ideal) S1024x1024 .f32 0x00000000#32) (ix2 p q)
      = ∑ k : Fin 2, a (ix2 p k) * z (ix2 q k) := by
  simp only [matmul]
  rw [Ideal.matmul_constant_zero_apply, ← Equiv.sum_comp (ValueIdx.contrEquiv1 dot_S1024x2_S2x1024_S1024x1024_1_0_0_1_n_n 2 rfl rfl).symm]
  refine Finset.sum_congr rfl fun k _ => ?_
  have hk := ValueIdx.contrEquiv1_symm_val dot_S1024x2_S2x1024_S1024x1024_1_0_0_1_n_n 2 rfl rfl k
  have el : dot_S1024x2_S2x1024_S1024x1024_1_0_0_1_n_n.lhsIdx (ix2 p q) ((ValueIdx.contrEquiv1 dot_S1024x2_S2x1024_S1024x1024_1_0_0_1_n_n 2 rfl rfl).symm k) = ix2 p k := funext fun a => Fin.ext (by
    match a with
    | ⟨0, _⟩ => exact lhs_axis0 _ _
    | ⟨1, _⟩ => exact (lhs_axis1 _ _).trans hk)
  have er : dot_S1024x2_S2x1024_S1024x1024_1_0_0_1_n_n.rhsIdx (ix2 p q) ((ValueIdx.contrEquiv1 dot_S1024x2_S2x1024_S1024x1024_1_0_0_1_n_n 2 rfl rfl).symm k) = ix2 k q := funext fun a => Fin.ext (by
    match a with
    | ⟨0, _⟩ => exact (rhs_axis0 _ _).trans hk
    | ⟨1, _⟩ => exact rhs_axis1 _ _)
  rw [el, er]
  exact congrArg (a (ix2 p k) * ·) (transpose_ix2_apply z _ k q)

/-- The stored value at entry `(p, q)` of the output block (under its leading unit axis) is the radial-basis entry of
    grid point `q`, token `p` and token `p`'s width. -/
theorem pay_apply (x0 : FVec Ideal S1024x2 .f32) (x1 : FVec Ideal S1x1024x2 .f32) (x3 : FVec Ideal S1x1024x1 .f32)
    (u : Fin 1) (p q : Fin 1024) :
    k0_pay1 (F := Ideal) x0 x1 x3 (ix3 u p q)
      = Cert.Rbf.entry (fun k => x0 (ix2 q k)) (fun k => x1 (ix3 (0 : Fin 1) p k)) (x3 (ix3 (0 : Fin 1) p (0 : Fin 1))) := by
  unfold k0_pay1
  refine (shapeCast_ab_1ab_apply _ _ u p q).trans ?_
  simp only [Idealize.ShloMosaic.exp, divf_apply, subf_apply, maximumf_apply, minimumf_apply, addf_apply, mulf_apply,
    broadcast_apply, Cert.LibKeepdims.broadcastTo_a1_ab_apply, Cert.LibKeepdims.shapeCast_a_a1_apply,
    broadcastTo_1b_ab_apply, shapeCast_a_1a_apply, shapeCast_1ab_ab_apply]
  rw [rowSum_apply, rowSum_apply, cross_apply]
  simp only [mulf_apply, shapeCast_1ab_ab_apply, Cert.Rbf.entry, Cert.Rbf.sqDist, Cert.Rbf.clip, Cert.Rbf.lo, Cert.Rbf.hi,
    Cert.Rbf.two, Ideal.ofBits_def, Ideal.exp_def, Ideal.ofBits_zero_f32, zero_sub]

end Cert.Rbf.Body

end
-- ==== Proof.KernelValue.lean ====
/-
  From the blocks to the whole array: after the kernel's run the result array is `Cert.Rbf.G` of the three arguments.

  The grid has 8 · 2 · 4 points `(b, ni, mi)`.  At a point the body sees rows `1024·mi …` of the grid points, rows
  `1024·ni …` of batch `b` of the token positions and of the widths, and writes back block `(b, ni, mi)` of the
  result.  Entry `(p, q)` of the written block is the radial-basis entry of the block's grid point `q` and token `p`,
  which are grid point `1024·mi + q` and token `(b, 1024·ni + p)` of the arguments: so the written block is block
  `(b, ni, mi)` of `G`.  The blocks tile the result, each entry `(b, n, m)` lying in block `(b, n / 1024, m / 1024)`,
  so the whole result is `G`.
-/
import proofs.«173449_j25331717112421_1_alg».proof.Proof.Gen.KernelIdeal.Value
import proofs.«173449_j25331717112421_1_alg».proof.Proof.Payload

set_option maxRecDepth 16384

noncomputable section

namespace Cert.Rbf.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The three argument arrays as the region finds them, and their blocks at a grid point, at their literal shapes. -/
abbrev zArr (c : Dev nD) : FVec Ideal S4096x2 .f32 := V m c main_arg0
abbrev muArr (c : Dev nD) : FVec Ideal S8x2048x2 .f32 := V m c main_arg1
abbrev sgArr (c : Dev nD) : FVec Ideal S8x2048x1 .f32 := V m c main_arg2
abbrev zBlk (c : Dev nD) (t : Fin cfg0.N) : FVec Ideal S1024x2 .f32 := iblk m c 0 t
abbrev muBlk (c : Dev nD) (t : Fin cfg0.N) : FVec Ideal S1x1024x2 .f32 := iblk m c 1 t
abbrev sgBlk (c : Dev nD) (t : Fin cfg0.N) : FVec Ideal S1x1024x1 .f32 := iblk m c 2 t

/-- The block indices, decided over the 64 grid points: the grid-point window follows the result's last axis, the
    token and width windows its first two; the result's block indices range over 8 × 2 × 4. -/
theorem idx_facts : ∀ t : Fin cfg0.N,
    win0_0.index t (0 : Fin 2) = win0_3.index t (2 : Fin 3) ∧ win0_0.index t (1 : Fin 2) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (0 : Fin 3) < 8 ∧ win0_3.index t (1 : Fin 3) < 2 ∧ win0_3.index t (2 : Fin 3) < 4 :=
  (by decide +kernel : ∀ t : Fin grid0.N, _)

/-- Every block of the result is some point's. -/
theorem idx_onto : ∀ (q0 : Fin 8) (q1 : Fin 2) (q2 : Fin 4), ∃ t : Fin cfg0.N, win0_3.index t = ![q0.val, q1.val, q2.val] :=
  (by decide +kernel : ∀ (q0 : Fin 8) (q1 : Fin 2) (q2 : Fin 4), ∃ t : Fin grid0.N, win0_3.index t = ![q0.val, q1.val, q2.val])

/-- The grid-point block at a point, at `(q, k)`, is the grid-point array at the row the block's index gives. -/
theorem zBlk_apply (c : Dev nD) (t : Fin cfg0.N) (q : Fin 1024) (k : Fin 2) (i : S4096x2.Idx)
    (h0 : (i 0).val = win0_0.index t (0 : Fin 2) * 1024 + q.val) (h1 : (i 1).val = win0_0.index t (1 : Fin 2) * 2 + k.val) :
    zBlk m c t (ix2 q k) = zArr m c i := by
  show V m c main_arg0 (((cfg0.win 0).blk t).view.emb (ix2 q k)) = V m c main_arg0 i
  congr 1
  funext a; apply Fin.ext
  match a with
  | ⟨0, _⟩ => show win0_0.index t (0 : Fin 2) * 1024 + 1 * q.val = (i 0).val; omega
  | ⟨1, _⟩ => show win0_0.index t (1 : Fin 2) * 2 + 1 * k.val = (i 1).val; omega

/-- The token block at a point, at `(0, p, k)`, is the token array at the batch and row the block's index gives. -/
theorem muBlk_apply (c : Dev nD) (t : Fin cfg0.N) (u : Fin 1) (p : Fin 1024) (k : Fin 2) (i : S8x2048x2.Idx)
    (h0 : (i 0).val = win0_1.index t (0 : Fin 3) * 1 + u.val) (h1 : (i 1).val = win0_1.index t (1 : Fin 3) * 1024 + p.val)
    (h2 : (i 2).val = win0_1.index t (2 : Fin 3) * 2 + k.val) :
    muBlk m c t (ix3 u p k) = muArr m c i := by
  show V m c main_arg1 (((cfg0.win 1).blk t).view.emb (ix3 u p k)) = V m c main_arg1 i
  congr 1
  funext a; apply Fin.ext
  match a with
  | ⟨0, _⟩ => show win0_1.index t (0 : Fin 3) * 1 + 1 * u.val = (i 0).val; omega
  | ⟨1, _⟩ => show win0_1.index t (1 : Fin 3) * 1024 + 1 * p.val = (i 1).val; omega
  | ⟨2, _⟩ => show win0_1.index t (2 : Fin 3) * 2 + 1 * k.val = (i 2).val; omega

/-- The width block at a point, at `(0, p, 0)`, is the width array at the batch and row the block's index gives. -/
theorem sgBlk_apply (c : Dev nD) (t : Fin cfg0.N) (u : Fin 1) (p : Fin 1024) (k : Fin 1) (i : S8x2048x1.Idx)
    (h0 : (i 0).val = win0_2.index t (0 : Fin 3) * 1 + u.val) (h1 : (i 1).val = win0_2.index t (1 : Fin 3) * 1024 + p.val)
    (h2 : (i 2).val = win0_2.index t (2 : Fin 3) * 1 + k.val) :
    sgBlk m c t (ix3 u p k) = sgArr m c i := by
  show V m c main_arg2 (((cfg0.win 2).blk t).view.emb (ix3 u p k)) = V m c main_arg2 i
  congr 1
  funext a; apply Fin.ext
  match a with
  | ⟨0, _⟩ => show win0_2.index t (0 : Fin 3) * 1 + 1 * u.val = (i 0).val; omega
  | ⟨1, _⟩ => show win0_2.index t (1 : Fin 3) * 1024 + 1 * p.val = (i 1).val; omega
  | ⟨2, _⟩ => show win0_2.index t (2 : Fin 3) * 1 + 1 * k.val = (i 2).val; omega

/-- WHAT POINT `t` WRITES BACK is block `t` of `G` of the argument arrays. -/
theorem flushed_eq (c : Dev nD) (t : Fin cfg0.N) :
    (dats m 0 c).flushed 3 t
      = ((cfg0.win 3).blk t).view.read (Elt Ideal) (Cert.Rbf.G (zArr m c) (muArr m c) (sgArr m c)) := by
  rw [flushed3]
  unfold out0_3
  rw [View.canon_unit_zero origin3]
  simp only [View.ld_unit_zero (S := S1024x2) origin2, View.ld_unit_zero (S := S1x1024x2) origin3,
    View.ld_unit_zero (S := S1x1024x1) origin3]
  funext j
  obtain ⟨u, p, q, rfl⟩ : ∃ (u : Fin 1) (p q : Fin 1024), j = ix3 u p q := ⟨j 0, j 1, j 2, eq_ix3 j⟩
  show k0_pay1 (F := Ideal) (zBlk m c t) (muBlk m c t) (sgBlk m c t) (ix3 u p q)
    = Cert.Rbf.G (zArr m c) (muArr m c) (sgArr m c) (((cfg0.win 3).blk t).view.emb (ix3 u p q))
  obtain ⟨e00, e01, e10, e11, e12, e20, e21, e22, l0, l1, l2⟩ := idx_facts t
  have hpos : ((cfg0.win 3).blk t).view.emb (ix3 u p q)
      = ix3 (⟨win0_3.index t (0 : Fin 3), l0⟩ : Fin 8) (⟨win0_3.index t (1 : Fin 3) * 1024 + p.val, by have := p.isLt; omega⟩ : Fin 2048)
          (⟨win0_3.index t (2 : Fin 3) * 1024 + q.val, by have := q.isLt; omega⟩ : Fin 4096) := by
    have hu : u.val = 0 := by omega
    funext a; apply Fin.ext
    match a with
    | ⟨0, _⟩ => show win0_3.index t (0 : Fin 3) * 1 + 1 * u.val = win0_3.index t (0 : Fin 3); omega
    | ⟨1, _⟩ => show win0_3.index t (1 : Fin 3) * 1024 + 1 * p.val = win0_3.index t (1 : Fin 3) * 1024 + p.val; omega
    | ⟨2, _⟩ => show win0_3.index t (2 : Fin 3) * 1024 + 1 * q.val = win0_3.index t (2 : Fin 3) * 1024 + q.val; omega
  rw [hpos, Cert.Rbf.G_apply, Cert.Rbf.Body.pay_apply]
  congr 1
  · funext k
    exact zBlk_apply m c t q k _
      (by show win0_3.index t (2 : Fin 3) * 1024 + q.val = win0_0.index t (0 : Fin 2) * 1024 + q.val; omega)
      (by show k.val = win0_0.index t (1 : Fin 2) * 2 + k.val; omega)
  · funext k
    exact muBlk_apply m c t 0 p k _
      (by show win0_3.index t (0 : Fin 3) = win0_1.index t (0 : Fin 3) * 1 + 0; omega)
      (by show win0_3.index t (1 : Fin 3) * 1024 + p.val = win0_1.index t (1 : Fin 3) * 1024 + p.val; omega)
      (by show k.val = win0_1.index t (2 : Fin 3) * 2 + k.val; omega)
  · exact sgBlk_apply m c t 0 p 0 _
      (by show win0_3.index t (0 : Fin 3) = win0_2.index t (0 : Fin 3) * 1 + 0; omega)
      (by show win0_3.index t (1 : Fin 3) * 1024 + p.val = win0_2.index t (1 : Fin 3) * 1024 + p.val; omega)
      (by show 0 = win0_2.index t (2 : Fin 3) * 1 + 0; omega)

/-- An index of the result is in point `t`'s block iff each coordinate is in the block's range on its axis. -/
theorem mem_blk (t : Fin cfg0.N) (i : S8x2048x4096.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every entry of the result lies in some point's block: entry `(b, n, m)` in block `(b, n / 1024, m / 1024)`. -/
theorem covered (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE RESULT ARRAY after the run is `G` of the arguments as launched. -/
theorem final (c : Dev nD) :
    (dats m 0 c).arrAt 3 cfg0.N
      = Cert.Rbf.G (m ((c : Thread nD τ).loc main_arg0)) (m ((c : Thread nD τ).loc main_arg1)) (m ((c : Thread nD τ).loc main_arg2)) :=
  (dats m 0 c).arrAt_eq_of_cover 3 (Cert.Rbf.G (zArr m c) (muArr m c) (sgArr m c)) (fun t _ => flushed_eq m c t) covered

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Rbf.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Rbf.Kernel

end
-- ==== Proof.RefValue.lean ====
/-
  The reference program's result, stage by stage, is the radial-basis array `G` of its three arguments.

  Read at entry `(b, n, m)`: the clipped width is the minimum with the upper bound of the maximum with the lower
  bound; the two row norms are host sums over the two coordinates started from zero; the cross term is the host's
  product of the token positions with the grid points, a sum over the two coordinates; the broadcasts only repeat a
  value along the axes it does not depend on.  So the entry is the Gaussian of the cut-off squared distance over twice
  the squared clipped width, which is `Cert.Rbf.entry`.  The host's negation is the negation, its quotient and
  exponential the ideal ones.
-/
import proofs.«173449_j25331717112421_1_alg».proof.Proof.Gen.ReferenceIdeal.Read
import proofs.«173449_j25331717112421_1_alg».proof.Proof.Spec

noncomputable section

namespace Cert.Rbf.Ref

open Cert.ReferenceIdeal Cert.ReferenceIdeal.Gen Cert.ReferenceIdeal.Read
open Idealize.ShloMosaic Idealize.ShloMosaic.ValueIdx

/-- The row of the token array the norm of token `(b, n)` sums over. -/
theorem idx_norm_mu (b : Fin 8) (n : Fin 2048) (m : Fin 4096) (k : Fin 2) :
    idx_main_v4 (idx_main_v5 (idx_main_v8 (ix3 b n m))) k = ix3 b n k :=
  funext fun a => Fin.ext (by match a with | ⟨0, _⟩ => rfl | ⟨1, _⟩ => rfl | ⟨2, _⟩ => rfl)

/-- The row of the grid-point array the norm of grid point `m` sums over. -/
theorem idx_norm_z (b : Fin 8) (n : Fin 2048) (m : Fin 4096) (k : Fin 2) :
    idx_main_v2 (idx_main_v7 (idx_main_v9 (ix3 b n m))) k = ix2 m k :=
  funext fun a => Fin.ext (by match a with | ⟨0, _⟩ => rfl | ⟨1, _⟩ => rfl)

/-- The left factor of the cross term: coordinate `k` of token `(b, n)`. -/
theorem idx_cross_mu (b : Fin 8) (n : Fin 2048) (m : Fin 4096) (k : Fin 2) :
    lidx_main_v6 (ix3 b n m) k = ix3 b n k :=
  funext fun a => Fin.ext (by match a with | ⟨0, _⟩ => rfl | ⟨1, _⟩ => rfl | ⟨2, _⟩ => rfl)

/-- The right factor of the cross term: coordinate `k` of grid point `m`. -/
theorem idx_cross_z (b : Fin 8) (n : Fin 2048) (m : Fin 4096) (k : Fin 2) :
    ridx_main_v6 (ix3 b n m) k = ix2 m k :=
  funext fun a => Fin.ext (by match a with | ⟨0, _⟩ => rfl | ⟨1, _⟩ => rfl)

/-- The width of token `(b, n)`. -/
theorem idx_width (b : Fin 8) (n : Fin 2048) (m : Fin 4096) :
    idx_main_v20 (ix3 b n m) = ix3 b n (0 : Fin 1) :=
  funext fun a => Fin.ext (by match a with | ⟨0, _⟩ => rfl | ⟨1, _⟩ => rfl | ⟨2, _⟩ => rfl)

/-- The reference's last stage is `G` of the arguments. -/
theorem result_eq (x0 : FVec Ideal S4096x2 .f32) (x1 : FVec Ideal S8x2048x2 .f32) (x2 : FVec Ideal S8x2048x1 .f32) :
    val_main_v22 (F := Ideal) x0 x1 x2 = Cert.Rbf.G x0 x1 x2 := by
  funext i
  obtain ⟨b, n, m, rfl⟩ : ∃ (b : Fin 8) (n : Fin 2048) (m : Fin 4096), i = ix3 b n m := ⟨i 0, i 1, i 2, eq_ix3 i⟩
  rw [Cert.Rbf.G_apply]
  simp only [val_main_v22_apply, val_main_v21_apply, val_main_v20_apply, val_main_v19_apply, val_main_v18_apply,
    val_main_v17_apply, val_main_cst_5_apply, val_main_v16_apply, val_main_v15_apply, val_main_v14_apply,
    val_main_cst_4_apply, val_main_v13_apply, val_main_v12_apply, val_main_v11_apply, val_main_cst_3_apply,
    val_main_v10_apply, val_main_v9_apply, val_main_v8_apply, val_main_v7_apply, val_main_v6_apply, val_main_v5_apply,
    val_main_v4_apply, val_main_cst_2_apply, val_main_v3_apply, val_main_v2_apply, val_main_cst_1_apply,
    val_main_v1_apply, val_main_v0_apply, val_main_call0_v4_apply, val_main_call0_v3_apply, val_main_call0_v2_apply,
    val_main_call0_v1_apply, val_main_call0_v0_apply, val_main_cst_0_apply, val_main_cst_apply,
    idx_norm_mu, idx_norm_z, idx_cross_mu, idx_cross_z, idx_width,
    Ideal.ofBits_def, Ideal.mulf_def, Ideal.addf_def, Ideal.subf_def, Ideal.maximumf_def, Ideal.minimumf_def,
    Ideal.hostNegf_def, Ideal.negf_def, Ideal.hostDivf_def, Ideal.hostUnary_exp_def, Ideal.ofBits_zero_f32, zero_add]
  rfl

end Cert.Rbf.Ref

end
-- ==== Proof.lean ====
/-
  The radial-basis kernel matrix: for 4096 grid points `z` and 8 × 2048 token positions `mu` of the plane with widths
  `sigma`, entry `(b, n, m)` is

      exp ( - max (|mu[b,n]|² + |z[m]|² - 2 ⟨mu[b,n], z[m]⟩) 0 / (2 · clip(sigma[b,n])²) ).

  The tiled kernel computes one 1024 × 1024 block of one batch per grid point, from the block's 1024 token rows and
  1024 grid-point rows; the reference computes the whole array at once.  On the extended reals both are the same
  function, entry by entry (`Cert.Rbf.G`): the kernel's lane sums and its matrix product into a zero accumulator are
  the reference's host sums from zero and its contraction, sums over the same two coordinates in the same order; the
  two clips, the cut-off at zero, the quotient and the exponential are the same operations; the kernel's `0 - d` is the
  reference's `-d`; and the constants are the same patterns on both sides.  No law beyond `0 - d = -d` and
  `0 + s = s` is used, so the inputs' finiteness is not needed.

  * `Proof/Spec.lean`: the entry and the array `G`.
  * `Proof/RefValue.lean`: the reference's result is `G` of its arguments.
  * `Proof/Payload.lean`: the kernel body's stored value at one entry of a block.
  * `Proof/KernelValue.lean`: each written block is a block of `G`, the blocks tile the result, so the kernel's
    result is `G` of its arguments.
  * `Proof/LibKeepdims.lean`: a vector kept as a column and repeated along rows, read at an index.

  The three programs' runs and frames are the generated modules'; the idealization rewrote nothing, so the fourth
  conjunct is trivial.
-/
import proofs.«173449_j25331717112421_1_alg».proof.Defs
import proofs.«173449_j25331717112421_1_alg».proof.Proof.Gen.Kernel
import proofs.«173449_j25331717112421_1_alg».proof.Proof.Gen.Kernel.Skeleton
import proofs.«173449_j25331717112421_1_alg».proof.Proof.Gen.Kernel.Launch
import proofs.«173449_j25331717112421_1_alg».proof.Proof.Gen.Kernel.Points
import proofs.«173449_j25331717112421_1_alg».proof.Proof.Gen.Kernel.Frame
import proofs.«173449_j25331717112421_1_alg».proof.Proof.Gen.KernelIdeal
import proofs.«173449_j25331717112421_1_alg».proof.Proof.Gen.KernelIdeal.Skeleton
import proofs.«173449_j25331717112421_1_alg».proof.Proof.Gen.KernelIdeal.Launch
import proofs.«173449_j25331717112421_1_alg».proof.Proof.Gen.KernelIdeal.Points
import proofs.«173449_j25331717112421_1_alg».proof.Proof.Gen.KernelIdeal.Frame
import proofs.«173449_j25331717112421_1_alg».proof.Proof.Gen.ReferenceIdeal
import proofs.«173449_j25331717112421_1_alg».proof.Proof.Gen.Pre_finite_inputs
import proofs.«173449_j25331717112421_1_alg».proof.Proof.Gen.KernelIdeal.Value
import proofs.«173449_j25331717112421_1_alg».proof.Proof.Gen.ReferenceIdeal.Run
import proofs.«173449_j25331717112421_1_alg».proof.Proof.Gen.ReferenceIdeal.Read
import proofs.«173449_j25331717112421_1_alg».proof.Proof.KernelValue
import proofs.«173449_j25331717112421_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments, both programs end with the radial-basis array `G` of the
    arguments: the kernel's tiled run (`Cert.Rbf.Kernel.run`) and the reference's run read stage by stage
    (`Cert.Rbf.Ref.result_eq`). -/
theorem algebraic : Cert.algebraic_KernelIdeal_ReferenceIdeal := by
  intro m ρ m' ρ' _ hagree
  refine ⟨fun c => Cert.Rbf.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Rbf.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
